-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x16384 : Shape := ⟨2, ![8192, 16384]⟩
abbrev S128x8 : Shape := ⟨2, ![128, 8]⟩
abbrev S8 : Shape := ⟨1, ![8]⟩
abbrev S1x16 : Shape := ⟨2, ![1, 16]⟩
abbrev S8x1 : Shape := ⟨2, ![8, 1]⟩
abbrev S1 : Shape := ⟨1, ![1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S1x16 : S_.BroadcastsInDim S1x16 (![] : Fin 0 → Fin S1x16.rank)
  reducesTo_S1x16_S_d0_1 : S1x16.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S8 .f32) (main_arg5 : FVec F S1x16 .f32) (main_arg6 : FVec F S8x1 .f32) (main_arg7 : FVec F S1 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S8x1 .f32 := Host.absf main_arg6
  let main_cst_10 : FVec F S_ .f32 := constant S_ .f32 0x7F800000#32
  let main_v30 : FVec F S8x1 .f32 := broadcastInDim S8x1 ![] bcast_S_S8x1 main_cst_10
  let main_v31 : IVec S8x1 1 := cmpf .olt main_v29 main_v30
  let main_c_11 : IVec S_ 1 := constantI S_ 1 1#1
  let main_v32 : IVec S_ 1 := (fun x v => Host.reduce IntOp.andi x v reducesTo_S8x1_S_d0_1 h_S_) main_v31 main_c_11
  let main_v33 : IVec S_ 1 := andi main_v28 main_v32
  fn_part2 (F := F) main_arg7 main_v33

def fn {F : FTy → Type} [FloatOps F] (main_arg0 : FVec F S8192x64 .f32) (main_arg1 : FVec F S8192x16384 .f32) (main_arg2 : FVec F S8192x16384 .f32) (main_arg3 : FVec F S128x8 .f32) (main_arg4 : FVec F S8 .f32) (main_arg5 : FVec F S1x16 .f32) (main_arg6 : FVec F S8x1 .f32) (main_arg7 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x16384 .f32 := Host.absf main_arg1
  let main_cst_0 : FVec F S_ .f32 := constant S_ .f32 0x7F800000#32
  let main_v5 : FVec F S8192x16384 .f32 := broadcastInDim S8192x16384 ![] bcast_S_S8192x16384 main_cst_0
  let main_v6 : IVec S8192x16384 1 := cmpf .olt main_v4 main_v5
  let main_c_1 : IVec S_ 1 := constantI S_ 1 1#1
  let main_v7 : IVec S_ 1 := (fun x v => Host.reduce IntOp.andi x v reducesTo_S8192x16384_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_arg5 main_arg6 main_arg7 main_v13 main_v16
-- ==== Kernel.lean ====
abbrev S8192x64 : Shape := ⟨2, ![8192, 64]⟩
abbrev S8192x16384 : Shape := ⟨2, ![8192, 16384]⟩
abbrev S128x8 : Shape := ⟨2, ![128, 8]⟩
abbrev S8 : Shape := ⟨1, ![8]⟩
abbrev S1x16 : Shape := ⟨2, ![1, 16]⟩
abbrev S8x1 : Shape := ⟨2, ![8, 1]⟩
abbrev S1 : Shape := ⟨1, ![1]⟩
abbrev S16384x128 : Shape := ⟨2, ![16384, 128]⟩
abbrev S1024x1024 : Shape := ⟨2, ![1024, 1024]⟩
abbrev S1024x64 : Shape := ⟨2, ![1024, 64]⟩
abbrev S1024x128 : Shape := ⟨2, ![1024, 128]⟩
abbrev S16384x8 : Shape := ⟨2, ![16384, 8]⟩
abbrev S1x8 : Shape := ⟨2, ![1, 8]⟩
abbrev S_ : Shape := ⟨0, ![]⟩
abbrev S2x8 : Shape := ⟨2, ![2, 8]⟩
abbrev S16384x1 : Shape := ⟨2, ![16384, 1]⟩
abbrev S1x1 : Shape := ⟨2, ![1, 1]⟩

abbrev nBuf : Space → Nat
  | .hbm => 47
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S8192x16384, .f32⟩
  | .hbm, ⟨2, _⟩ => ⟨S8192x16384, .f32⟩
  | .hbm, ⟨3, _⟩ => ⟨S128x8, .f32⟩
  | .hbm, ⟨4, _⟩ => ⟨S8, .f32⟩
  | .hbm, ⟨5, _⟩ => ⟨S1x16, .f32⟩
  | .hbm, ⟨6, _⟩ => ⟨S8x1, .f32⟩
  | .hbm, ⟨7, _⟩ => ⟨S1, .f32⟩
  | .hbm, ⟨8, _⟩ => ⟨S16384x128, .f32⟩
  | .hbm, ⟨9, _⟩ => ⟨S16384x8, .f32⟩
  | .hbm, ⟨10, _⟩ => ⟨S1x8, .f32⟩
  | .hbm, ⟨11, _⟩ => ⟨S16384x8, .f32⟩
  | .hbm, ⟨12, _⟩ => ⟨S16384x8, .f32⟩
  | .hbm, ⟨13, _⟩ => ⟨S_, .f32⟩
  | .hbm, ⟨14, _⟩ => ⟨S16384x8, .f32⟩
  | .hbm, ⟨15, _⟩ => ⟨S16384x8, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x8, .f32⟩
  | .hbm, ⟨21, _⟩ => ⟨S16384x8, .f32⟩
  | .hbm, ⟨22, _⟩ => ⟨S_, .f32⟩
  | .hbm, ⟨23, _⟩ => ⟨S16384x8, .f32⟩
  | .hbm, ⟨24, _⟩ => ⟨S16384x8, .f32⟩
  | .hbm, ⟨25, _⟩ => ⟨S_, .f32⟩
  | .hbm, ⟨26, _⟩ => ⟨S16384x8, .f32⟩
  | .hbm, ⟨27, _⟩ => ⟨S16384x8, .f32⟩
  | .hbm, ⟨28, _⟩ => ⟨S2x8, .f32⟩
  | .hbm, ⟨29, _⟩ => ⟨S_, .f32⟩
  | .hbm, ⟨30, _⟩ => ⟨S8, .f32⟩
  | .hbm, ⟨31, _⟩ => ⟨S1x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S16384x1, .f32⟩
  | .hbm, ⟨36, _⟩ => ⟨S1x1, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x64, .f32⟩
  | .local _ .vmem, ⟨5, _⟩ => ⟨S1024x64, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  inb_S1024x64_S1024x64_0_0 : ∀ a, (![0, 0] : Fin 2 → Nat) a + S1024x64.size a ≤ S1024x64.size a
  h_S1024x64 : 0 < S1024x64.numel
  inb_S1024x128_S1024x64_0_0 : ∀ a, (![0, 0] : Fin 2 → Nat) a + S1024x64.size a ≤ S1024x128.size a
  shapeCasts_S1024x64_S1024x64 : S1024x64.ShapeCasts S1024x64
  inb_S1024x128_S1024x64_0_64 : ∀ a, (![0, 64] : Fin 2 → Nat) a + S1024x64.size a ≤ S1024x128.size a
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  reducesTo_S16384x8_S_d0_1 : S16384x8.ReducesTo [0, 1] S_
  h_S_ : 0 < S_.numel
  shapeCasts_S1x16_S2x8 : S1x16.ShapeCasts S2x8
  reducesTo_S2x8_S8_d0 : S2x8.ReducesTo [0] S8
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S1024x1024_S1024x64_S1024x64_0_0_1_1_n_n_wf : DotDims.WF S1024x1024 S1024x64 S1024x64 [0] [0] [1] [1] [] []
  dot_S16384x128_S128x8_S16384x8_1_0_0_1_n_n_wf : DotDims.WF S16384x128 S128x8 S16384x8 [1] [0] [0] [1] [] []
  dot_S16384x8_S8x1_S16384x1_1_0_0_1_n_n_wf : DotDims.WF S16384x8 S8x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x16384.size a
  hwx0_0 : ∀ i : grid0.Coords, EltTy.bits .f32 = 32 ∨ (Rect.block (s := S8192x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x16384.size a
  hwx0_1 : ∀ i : grid0.Coords, EltTy.bits .f32 = 32 ∨ (Rect.block (s := S8192x16384) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)

variable [Facts₀]

def dot_S1024x1024_S1024x64_S1024x64_0_0_1_1_n_n : DotDims S1024x1024 S1024x64 S1024x64 where
  lhsContracting := [0]
  rhsContracting := [0]
  lhsNonContracting := [1]
  rhsNonContracting := [1]
  lhsBatch := []
  rhsBatch := []
  wf := dot_S1024x1024_S1024x64_S1024x64_0_0_1_1_n_n_wf
def dot_S16384x128_S128x8_S16384x8_1_0_0_1_n_n : DotDims S16384x128 S128x8 S16384x8 where
  lhsContracting := [1]
  rhsContracting := [0]
  lhsNonContracting := [0]
  rhsNonContracting := [1]
  lhsBatch := []
  rhsBatch := []
  wf := dot_S16384x128_S128x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x16384 : Shape := ⟨2, ![8192, 16384]⟩
abbrev S128x8 : Shape := ⟨2, ![128, 8]⟩
abbrev S8 : Shape := ⟨1, ![8]⟩
abbrev S1x16 : Shape := ⟨2, ![1, 16]⟩
abbrev S8x1 : Shape := ⟨2, ![8, 1]⟩
abbrev S1 : Shape := ⟨1, ![1]⟩
abbrev S16384x8192 : Shape := ⟨2, ![16384, 8192]⟩
abbrev S16384x64 : Shape := ⟨2, ![16384, 64]⟩
abbrev S16384x128 : Shape := ⟨2, ![16384, 128]⟩
abbrev S16384x8 : Shape := ⟨2, ![16384, 8]⟩
abbrev S1x8 : Shape := ⟨2, ![1, 8]⟩
abbrev S_ : Shape := ⟨0, ![]⟩
abbrev S2x8 : Shape := ⟨2, ![2, 8]⟩
abbrev S16384x1 : Shape := ⟨2, ![16384, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x16384, .f32⟩
  | .hbm, ⟨2, _⟩ => ⟨S8192x16384, .f32⟩
  | .hbm, ⟨3, _⟩ => ⟨S128x8, .f32⟩
  | .hbm, ⟨4, _⟩ => ⟨S8, .f32⟩
  | .hbm, ⟨5, _⟩ => ⟨S1x16, .f32⟩
  | .hbm, ⟨6, _⟩ => ⟨S8x1, .f32⟩
  | .hbm, ⟨7, _⟩ => ⟨S1, .f32⟩
  | .hbm, ⟨8, _⟩ => ⟨S16384x8192, .f32⟩
  | .hbm, ⟨9, _⟩ => ⟨S16384x64, .f32⟩
  | .hbm, ⟨10, _⟩ => ⟨S16384x8192, .f32⟩
  | .hbm, ⟨11, _⟩ => ⟨S16384x64, .f32⟩
  | .hbm, ⟨12, _⟩ => ⟨S16384x128, .f32⟩
  | .hbm, ⟨13, _⟩ => ⟨S16384x8, .f32⟩
  | .hbm, ⟨14, _⟩ => ⟨S1x8, .f32⟩
  | .hbm, ⟨15, _⟩ => ⟨S16384x8, .f32⟩
  | .hbm, ⟨16, _⟩ => ⟨S16384x8, .f32⟩
  | .hbm, ⟨17, _⟩ => ⟨S_, .f32⟩
  | .hbm, ⟨18, _⟩ => ⟨S16384x8, .f32⟩
  | .hbm, ⟨19, _⟩ => ⟨S16384x8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x8, .f32⟩
  | .hbm, ⟨25, _⟩ => ⟨S16384x8, .f32⟩
  | .hbm, ⟨26, _⟩ => ⟨S_, .f32⟩
  | .hbm, ⟨27, _⟩ => ⟨S16384x8, .f32⟩
  | .hbm, ⟨28, _⟩ => ⟨S16384x8, .f32⟩
  | .hbm, ⟨29, _⟩ => ⟨S_, .f32⟩
  | .hbm, ⟨30, _⟩ => ⟨S16384x8, .f32⟩
  | .hbm, ⟨31, _⟩ => ⟨S16384x8, .f32⟩
  | .hbm, ⟨32, _⟩ => ⟨S2x8, .f32⟩
  | .hbm, ⟨33, _⟩ => ⟨S_, .f32⟩
  | .hbm, ⟨34, _⟩ => ⟨S8, .f32⟩
  | .hbm, ⟨35, _⟩ => ⟨S1x8, .f32⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S16384x1, .f32⟩
  | .hbm, ⟨40, _⟩ => ⟨S1x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  transposes_S8192x16384_S16384x8192_1_0 : S8192x16384.Transposes [1, 0] S16384x8192
  concatenates_S16384x64_S16384x64_S16384x128_d1 : Shape.Concatenates [S16384x64, S16384x64] S16384x128 1
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  reducesTo_S16384x8_S_d0_1 : S16384x8.ReducesTo [0, 1] S_
  h_S_ : 0 < S_.numel
  shapeCasts_S1x16_S2x8 : S1x16.ShapeCasts S2x8
  reducesTo_S2x8_S8_d0 : S2x8.ReducesTo [0] S8
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x8192_S8192x64_S16384x64_1_0_0_1_n_n_wf : DotDims.WF S16384x8192 S8192x64 S16384x64 [1] [0] [0] [1] [] []
  dot_S16384x128_S128x8_S16384x8_1_0_0_1_n_n_wf : DotDims.WF S16384x128 S128x8 S16384x8 [1] [0] [0] [1] [] []
  dot_S16384x8_S8x1_S16384x1_1_0_0_1_n_n_wf : DotDims.WF S16384x8 S8x1 S16384x1 [1] [0] [0] [1] [] []

variable [Facts₀]

def dot_S16384x8192_S8192x64_S16384x64_1_0_0_1_n_n : DotDims S16384x8192 S8192x64 S16384x64 where
  lhsContracting := [1]
  rhsContracting := [0]
  lhsNonContracting := [0]
  rhsNonContracting := [1]
  lhsBatch := []
  rhsBatch := []
  wf := dot_S16384x8192_S8192x64_S16384x64_1_0_0_1_n_n_wf
def dot_S16384x128_S128x8_S16384x8_1_0_0_1_n_n : DotDims S16384x128 S128x8 S16384x8 where
  lhsContracting := [1]
  rhsContracting := [0]
  lhsNonContracting := [0]
  rhsNonContracting := [1]
  lhsBatch := []
  rhsBatch := []
  wf := dot_S16384x128_S128x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf

class Facts : Prop extends Facts₀ where

variable [Facts]
-- ==== Proof.AccPieces.lean ====
/-
  What one run of the kernel body leaves in its accumulator, read at an index.

  The accumulator is a [1024, 128] scratch: columns 0–63 (the LEFT half) belong to the outgoing incidence, columns
  64–127 (the RIGHT half) to the incoming one. The body adds, into each half, the product of that incidence block
  (transposed: nodes are contracted) with the feature block, reading the half back first. At the first node tile it
  zeroes the whole accumulator before that; at the last node tile it copies the whole accumulator to the output block
  afterwards. So after any run, the left half at (r, d) holds the body's second payload at (r, d) over what the left
  half held (the zero block, at a first tile), the right half at (r, 64 + d) the third payload over the right half.
-/
import proofs.«115826_j6622839570931_1_alg».proof.Proof.Gen.KernelIdeal.Frame
import Idealize.ShloMosaic.Lib.WritesUnit
import Idealize.ShloMosaic.Lib.Pipeline.Value
import Idealize.ShloMosaic.Lib.ValueIdx
import Idealize.ShloMosaic.Lib.Tactic

set_option maxRecDepth 16384

noncomputable section

namespace Cert.KernelIdeal.Acc

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz : (![0, 0] : Fin 2 → Nat) = fun _ => 0 := funext fun a => by fin_cases a <;> rfl

/-- The accumulator's left half: all 1024 rows, columns 0–63. -/
abbrev rectL : Rect S1024x128 := Rect.unit ![0, 0] S1024x64.size inb_S1024x128_S1024x64_0_0
/-- Its right half: all 1024 rows, columns 64–127. -/
abbrev rectR : Rect S1024x128 := Rect.unit ![0, 64] S1024x64.size inb_S1024x128_S1024x64_0_64

section TwoHalves

variable {κ : Kind} {sp : Space} (v : View sig κ sp S1024x128 .f32) (f : v.ty.Contents (Elt F))
  (PL PR : Vec F S1024x64 .f32) (L : List (View.Piece (Elt F) S1024x128 .f32))

/-- After a store of the left half and then one of the right half, a left-half index reads the left store. -/
theorem read_left (r : Fin 1024) (d : Fin 64) :
    v.read (Elt F) (v.writes (Elt F) f (⟨rectR, PR⟩ :: ⟨rectL, PL⟩ :: L)) (ix2 r ⟨d.val, by have := d.isLt; omega⟩)
      = PL (ix2 r d) := by
  refine (View.read_writes_cons_unit_of_not_mem v f inb_S1024x128_S1024x64_0_64 PR _ _ rfl (1 : Fin 2)
    (Or.inl (by show d.val < 64; exact d.isLt))).trans ?_
  exact View.read_writes_cons_unit_of_mem v f inb_S1024x128_S1024x64_0_0 PL L _ (ix2 r d) rfl (fun a => by
    match a with
    | ⟨0, _⟩ => show r.val = 0 + r.val; omega
    | ⟨1, _⟩ => show d.val = 0 + d.val; omega)

/-- And a right-half index reads the right store. -/
theorem read_right (r : Fin 1024) (d : Fin 64) :
    v.read (Elt F) (v.writes (Elt F) f (⟨rectR, PR⟩ :: ⟨rectL, PL⟩ :: L)) (ix2 r ⟨64 + d.val, by have := d.isLt; omega⟩)
      = PR (ix2 r d) :=
  View.read_writes_cons_unit_of_mem v f inb_S1024x128_S1024x64_0_64 PR _ _ (ix2 r d) rfl (fun a => by
    match a with
    | ⟨0, _⟩ => show r.val = 0 + r.val; omega
    | ⟨1, _⟩ => show 64 + d.val = 64 + d.val; rfl)

end TwoHalves

/-! ## The three cases of the body -/

section Cases

variable (c : Dev nD) (i : grid0.Coords) (arg2 : Memref sig .tc .vmem S1024x1024 .f32) (harg2 : arg2.IsWhole)
  (arg3 : Memref sig .tc .vmem S1024x1024 .f32) (harg3 : arg3.IsWhole) (arg4 : Memref sig .tc .vmem S1024x64 .f32) (harg4 : arg4.IsWhole)
  (arg5 : Memref sig .tc .vmem S1024x128 .f32) (harg5 : arg5.IsWhole) (arg6 : Memref sig .tc .vmem S1024x128 .f32) (harg6 : arg6.IsWhole)
  (x0 x1 : Vec F S1024x1024 .f32) (x2 : Vec F S1024x64 .f32) (xs0 : Vec F S1024x128 .f32)

/-- A load of any box after ONE store of the whole accumulator reads that store's payload in the box. -/
theorem readCov_whole {κ : Kind} {sp : Space} (v : View sig κ sp S1024x128 .f32) (w : Vec F S1024x128 .f32) (B : LoadRect S1024x128) :
    v.readCov [(⟨Rect.unit ![0, 0] S1024x128.size inb_S1024x128_S1024x128_0_0, w⟩ : View.Piece (Elt F) S1024x128 .f32)] B
      = fun j => w (B.idx j) := by
  rw [View.readCov_eq_canon', View.canon_unit_zero hz]

/-- A load of the right half after a store of the whole accumulator and then one of the left half reads the whole
    store's payload there: the left store does not reach the right half. -/
theorem readCov_right {κ : Kind} {sp : Space} (v : View sig κ sp S1024x128 .f32) (P : Vec F S1024x64 .f32) (w : Vec F S1024x128 .f32) :
    v.readCov [(⟨rectL, P⟩ : View.Piece (Elt F) S1024x128 .f32),
        (⟨Rect.unit ![0, 0] S1024x128.size inb_S1024x128_S1024x128_0_0, w⟩ : View.Piece (Elt F) S1024x128 .f32)]
      (rectR : Rect S1024x128).toLoadRect = fun j => w ((rectR : Rect S1024x128).toLoadRect.idx j) := by
  have hd : Disjoint (rectL : Rect S1024x128).set (rectR : Rect S1024x128).toLoadRect.set :=
    Rect.unit_disjoint (1 : Fin 2) (Or.inl (by show 0 + 64 ≤ 64; omega))
  rw [View.readCov_cons_of_disjoint v (⟨rectL, P⟩ : View.Piece (Elt F) S1024x128 .f32) _ (rectR : Rect S1024x128).toLoadRect hd]
  exact readCov_whole v w _

/-- A middle tile (neither the first nor the last node tile), left half: the second payload over the left half. -/
theorem scratch_B_left (hc0 : ¬cond0_0 i) (hc1 : ¬cond0_1 i) (r : Fin 1024) (d : Fin 64) :
    sout0_B_0 c i arg2 harg2 arg3 harg3 arg4 harg4 arg5 harg5 arg6 harg6 hc0 hc1 x0 x1 x2 xs0 (ix2 r ⟨d.val, by have := d.isLt; omega⟩)
      = k0_pay2 x0 x2 (View.ld xs0 rectL) (ix2 r d) := by
  unfold sout0_B_0 kernelRun0_B
  dsimp only
  sl_unfold_words
  refine (read_left _ _ _ _ _ r d).trans ?_
  simp only [View.readAt_eq_ld, harg2.read_unread, harg4.read_unread, harg6.read_unread,
    View.ld_unit_zero (S := S1024x1024) hz, View.ld_unit_zero (S := S1024x64) hz]

/-- A middle tile, right half: the third payload over the right half. -/
theorem scratch_B_right (hc0 : ¬cond0_0 i) (hc1 : ¬cond0_1 i) (r : Fin 1024) (d : Fin 64) :
    sout0_B_0 c i arg2 harg2 arg3 harg3 arg4 harg4 arg5 harg5 arg6 harg6 hc0 hc1 x0 x1 x2 xs0 (ix2 r ⟨64 + d.val, by have := d.isLt; omega⟩)
      = k0_pay3 x1 x2 (View.ld xs0 rectR) (ix2 r d) := by
  unfold sout0_B_0 kernelRun0_B
  dsimp only
  sl_unfold_words
  refine (read_right _ _ _ _ _ r d).trans ?_
  simp only [View.readAt_eq_ld, harg3.read_unread, harg4.read_unread, harg6.read_unread,
    View.ld_unit_zero (S := S1024x1024) hz, View.ld_unit_zero (S := S1024x64) hz]

/-- The last node tile, left half of the accumulator: as at a middle tile. -/
theorem scratch_C_left (hc0 : ¬cond0_0 i) (hc1 : cond0_1 i) (r : Fin 1024) (d : Fin 64) :
    sout0_C_0 c i arg2 harg2 arg3 harg3 arg4 harg4 arg5 harg5 arg6 harg6 hc0 hc1 x0 x1 x2 xs0 (ix2 r ⟨d.val, by have := d.isLt; omega⟩)
      = k0_pay2 x0 x2 (View.ld xs0 rectL) (ix2 r d) := by
  unfold sout0_C_0 kernelRun0_C
  dsimp only
  sl_unfold_words
  refine (read_left _ _ _ _ _ r d).trans ?_
  simp only [View.readAt_eq_ld, harg2.read_unread, harg4.read_unread, harg6.read_unread,
    View.ld_unit_zero (S := S1024x1024) hz, View.ld_unit_zero (S := S1024x64) hz]

/-- The last node tile, right half of the accumulator. -/
theorem scratch_C_right (hc0 : ¬cond0_0 i) (hc1 : cond0_1 i) (r : Fin 1024) (d : Fin 64) :
    sout0_C_0 c i arg2 harg2 arg3 harg3 arg4 harg4 arg5 harg5 arg6 harg6 hc0 hc1 x0 x1 x2 xs0 (ix2 r ⟨64 + d.val, by have := d.isLt; omega⟩)
      = k0_pay3 x1 x2 (View.ld xs0 rectR) (ix2 r d) := by
  unfold sout0_C_0 kernelRun0_C
  dsimp only
  sl_unfold_words
  refine (read_right _ _ _ _ _ r d).trans ?_
  simp only [View.readAt_eq_ld, harg3.read_unread, harg4.read_unread, harg6.read_unread,
    View.ld_unit_zero (S := S1024x1024) hz, View.ld_unit_zero (S := S1024x64) hz]

/-- The whole-shape box places an index at itself. -/
theorem whole_idx (y : S1024x128.Idx) :
    (Rect.unit ![0, 0] S1024x128.size inb_S1024x128_S1024x128_0_0).toLoadRect.idx y = y :=
  funext fun a => Fin.ext (by
    match a with
    | ⟨0, _⟩ => show 0 + 1 * (y 0).val = (y 0).val; omega
    | ⟨1, _⟩ => show 0 + 1 * (y 1).val = (y 1).val; omega)

/-- The last node tile copies the accumulator to the output block: its left half … -/
theorem out_C_left (hc0 : ¬cond0_0 i) (hc1 : cond0_1 i) (r : Fin 1024) (d : Fin 64) :
    out0_C_3 c i arg2 harg2 arg3 harg3 arg4 harg4 arg5 harg5 arg6 harg6 hc0 hc1 x0 x1 x2 xs0 (ix2 r ⟨d.val, by have := d.isLt; omega⟩)
      = k0_pay2 x0 x2 (View.ld xs0 rectL) (ix2 r d) := by
  unfold out0_C_3 kernelRun0_C
  dsimp only
  sl_unfold_words
  refine (View.read_writes_cons_unit_of_mem VO0_3 _ inb_S1024x128_S1024x128_0_0 _ [] _ (ix2 r ⟨d.val, by have := d.isLt; omega⟩) rfl
    (fun a => by
      match a with
      | ⟨0, _⟩ => show r.val = 0 + r.val; omega
      | ⟨1, _⟩ => show d.val = 0 + d.val; omega)).trans ?_
  rw [View.readCov_eq_canon']
  show View.canon _ ((Rect.unit ![0, 0] S1024x128.size inb_S1024x128_S1024x128_0_0).toLoadRect.idx _) = _
  rw [whole_idx, ← View.read_writes_junk_apply_eq_canon arg6.view]
  refine (read_left _ _ _ _ _ r d).trans ?_
  simp only [View.readAt_eq_ld, harg2.read_unread, harg4.read_unread, harg6.read_unread,
    View.ld_unit_zero (S := S1024x1024) hz, View.ld_unit_zero (S := S1024x64) hz]

/-- … and its right half. -/
theorem out_C_right (hc0 : ¬cond0_0 i) (hc1 : cond0_1 i) (r : Fin 1024) (d : Fin 64) :
    out0_C_3 c i arg2 harg2 arg3 harg3 arg4 harg4 arg5 harg5 arg6 harg6 hc0 hc1 x0 x1 x2 xs0 (ix2 r ⟨64 + d.val, by have := d.isLt; omega⟩)
      = k0_pay3 x1 x2 (View.ld xs0 rectR) (ix2 r d) := by
  unfold out0_C_3 kernelRun0_C
  dsimp only
  sl_unfold_words
  refine (View.read_writes_cons_unit_of_mem VO0_3 _ inb_S1024x128_S1024x128_0_0 _ [] _ (ix2 r ⟨64 + d.val, by have := d.isLt; omega⟩) rfl
    (fun a => by
      match a with
      | ⟨0, _⟩ => show r.val = 0 + r.val; omega
      | ⟨1, _⟩ => show 64 + d.val = 0 + (64 + d.val); omega)).trans ?_
  rw [View.readCov_eq_canon']
  show View.canon _ ((Rect.unit ![0, 0] S1024x128.size inb_S1024x128_S1024x128_0_0).toLoadRect.idx _) = _
  rw [whole_idx, ← View.read_writes_junk_apply_eq_canon arg6.view]
  refine (read_right _ _ _ _ _ r d).trans ?_
  simp only [View.readAt_eq_ld, harg3.read_unread, harg4.read_unread, harg6.read_unread,
    View.ld_unit_zero (S := S1024x1024) hz, View.ld_unit_zero (S := S1024x64) hz]

/-- The first node tile zeroes the accumulator first: the left half is the second payload over the zero block's left half. -/
theorem scratch_A_left (hc0 : cond0_0 i) (hc1 : ¬cond0_1 i) (r : Fin 1024) (d : Fin 64) :
    sout0_A_0 c i arg2 harg2 arg3 harg3 arg4 harg4 arg5 harg5 arg6 harg6 hc0 hc1 x0 x1 x2 (ix2 r ⟨d.val, by have := d.isLt; omega⟩)
      = k0_pay2 x0 x2 (View.ld (k0_pay1 (F := F)) rectL) (ix2 r d) := by
  unfold sout0_A_0 kernelRun0_A
  dsimp only
  sl_unfold_words
  refine (read_left _ _ _ _ _ r d).trans ?_
  rw [readCov_whole]
  simp only [View.readAt_eq_ld, harg2.read_unread, harg4.read_unread,
    View.ld_unit_zero (S := S1024x1024) hz, View.ld_unit_zero (S := S1024x64) hz]

/-- And the right half the third payload over the zero block's right half (the left store does not reach it). -/
theorem scratch_A_right (hc0 : cond0_0 i) (hc1 : ¬cond0_1 i) (r : Fin 1024) (d : Fin 64) :
    sout0_A_0 c i arg2 harg2 arg3 harg3 arg4 harg4 arg5 harg5 arg6 harg6 hc0 hc1 x0 x1 x2 (ix2 r ⟨64 + d.val, by have := d.isLt; omega⟩)
      = k0_pay3 x1 x2 (View.ld (k0_pay1 (F := F)) rectR) (ix2 r d) := by
  unfold sout0_A_0 kernelRun0_A
  dsimp only
  sl_unfold_words
  refine (read_right _ _ _ _ _ r d).trans ?_
  rw [readCov_right]
  simp only [View.readAt_eq_ld, harg3.read_unread, harg4.read_unread,
    View.ld_unit_zero (S := S1024x1024) hz, View.ld_unit_zero (S := S1024x64) hz]

end Cases

end Cert.KernelIdeal.Acc

end
-- ==== Proof.AccIdeal.lean ====
/-
  The body's arithmetic over the extended reals: one run adds to each accumulator entry the block product's entry.

  The body's matrix product contracts the NODE axis of both blocks — axis 0 of the [1024, 1024] incidence block (nodes
  by edges) and axis 0 of the [1024, 64] feature block (nodes by features) — into a zero accumulator, so at (r, d) it is
  `∑_q x[q, r] · xf[q, d]` over the tile's 1024 nodes `q`. The left half of the accumulator takes the outgoing block's
  product, the right half the incoming block's; the zero block the first tile stores is `0`, the monoid's unit.
-/
import proofs.«115826_j6622839570931_1_alg».proof.Proof.AccPieces
import Idealize.ShloMosaic.PureOps.Ideal.Laws

set_option maxRecDepth 16384

noncomputable section

namespace Cert.KernelIdeal.Acc

open Cert.KernelIdeal Cert.KernelIdeal.Gen Idealize.ShloMosaic Idealize.ShloMosaic.TcCoe Idealize.SL.Sem
open Idealize.ShloMosaic.ValueIdx
open scoped BigOperators

/-! ### The product's operand indices: node axis contracted on both sides -/

theorem lhs_node (i : S1024x64.Idx) (q : dot_S1024x1024_S1024x64_S1024x64_0_0_1_1_n_n.contr.Idx) :
    (dot_S1024x1024_S1024x64_S1024x64_0_0_1_1_n_n.lhsIdx i q 0).val = (q ⟨0, by decide⟩).val :=
  dot_S1024x1024_S1024x64_S1024x64_0_0_1_1_n_n.lhsIdx_val_of_single rfl i q
theorem lhs_edge (i : S1024x64.Idx) (q : dot_S1024x1024_S1024x64_S1024x64_0_0_1_1_n_n.contr.Idx) :
    (dot_S1024x1024_S1024x64_S1024x64_0_0_1_1_n_n.lhsIdx i q 1).val = (i 0).val := by
  unfold DotDims.lhsIdx
  rw [dif_neg (show ¬(1 : Fin S1024x1024.rank) ∈ dot_S1024x1024_S1024x64_S1024x64_0_0_1_1_n_n.lhsBatch by decide), dif_pos (show (1 : Fin S1024x1024.rank) ∈ dot_S1024x1024_S1024x64_S1024x64_0_0_1_1_n_n.lhsNonContracting by decide)]
  rfl
theorem rhs_node (i : S1024x64.Idx) (q : dot_S1024x1024_S1024x64_S1024x64_0_0_1_1_n_n.contr.Idx) :
    (dot_S1024x1024_S1024x64_S1024x64_0_0_1_1_n_n.rhsIdx i q 0).val = (q ⟨0, by decide⟩).val :=
  dot_S1024x1024_S1024x64_S1024x64_0_0_1_1_n_n.rhsIdx_val_of_single rfl i q
theorem rhs_feat (i : S1024x64.Idx) (q : dot_S1024x1024_S1024x64_S1024x64_0_0_1_1_n_n.contr.Idx) :
    (dot_S1024x1024_S1024x64_S1024x64_0_0_1_1_n_n.rhsIdx i q 1).val = (i 1).val := by
  unfold DotDims.rhsIdx
  rw [dif_neg (show ¬(1 : Fin S1024x64.rank) ∈ dot_S1024x1024_S1024x64_S1024x64_0_0_1_1_n_n.rhsBatch by decide), dif_pos (show (1 : Fin S1024x64.rank) ∈ dot_S1024x1024_S1024x64_S1024x64_0_0_1_1_n_n.rhsNonContracting by decide)]
  rfl

/-- The block product into the zero accumulator, at edge row `r` and feature `d`: the sum over the tile's nodes. -/
theorem tile_product (x : Vec Ideal S1024x1024 .f32) (xf : Vec Ideal S1024x64 .f32) (r : Fin 1024) (d : Fin 64) :
    matmul (F := Ideal) (φ₁ := .f32) (φ₂ := .f32) dot_S1024x1024_S1024x64_S1024x64_0_0_1_1_n_n none x xf (constant (F := Ideal) S1024x64 .f32 0x00000000#32) (ix2 r d)
      = ∑ q : Fin 1024, x (ix2 q r) * xf (ix2 q d) := by
  simp only [matmul]
  rw [Ideal.matmul_constant_zero_apply, ← Equiv.sum_comp (contrEquiv1 dot_S1024x1024_S1024x64_S1024x64_0_0_1_1_n_n 1024 rfl rfl).symm]
  refine Finset.sum_congr rfl fun k _ => ?_
  have hk := contrEquiv1_symm_val dot_S1024x1024_S1024x64_S1024x64_0_0_1_1_n_n 1024 rfl rfl k
  have el : dot_S1024x1024_S1024x64_S1024x64_0_0_1_1_n_n.lhsIdx (ix2 r d) ((contrEquiv1 dot_S1024x1024_S1024x64_S1024x64_0_0_1_1_n_n 1024 rfl rfl).symm k) = ix2 k r := funext fun a => Fin.ext (by
    match a with
    | ⟨0, _⟩ => exact (lhs_node _ _).trans hk
    | ⟨1, _⟩ => exact lhs_edge _ _)
  have er : dot_S1024x1024_S1024x64_S1024x64_0_0_1_1_n_n.rhsIdx (ix2 r d) ((contrEquiv1 dot_S1024x1024_S1024x64_S1024x64_0_0_1_1_n_n 1024 rfl rfl).symm k) = ix2 k d := funext fun a => Fin.ext (by
    match a with
    | ⟨0, _⟩ => exact (rhs_node _ _).trans hk
    | ⟨1, _⟩ => exact rhs_feat _ _)
  rw [el, er]

/-- The second payload: what the left half held, plus the outgoing block's product. -/
theorem pay2_apply (x : Vec Ideal S1024x1024 .f32) (xf : Vec Ideal S1024x64 .f32) (old : Vec Ideal S1024x64 .f32)
    (r : Fin 1024) (d : Fin 64) :
    k0_pay2 (F := Ideal) x xf old (ix2 r d) = old (ix2 r d) + ∑ q : Fin 1024, x (ix2 q r) * xf (ix2 q d) := by
  unfold k0_pay2
  rw [shapeCast_self]
  show old (ix2 r d) + matmul (F := Ideal) (φ₁ := .f32) (φ₂ := .f32) dot_S1024x1024_S1024x64_S1024x64_0_0_1_1_n_n none x xf (constant (F := Ideal) S1024x64 .f32 0x00000000#32) (ix2 r d) = _
  rw [tile_product]

/-- The third payload: what the right half held, plus the incoming block's product. -/
theorem pay3_apply (x : Vec Ideal S1024x1024 .f32) (xf : Vec Ideal S1024x64 .f32) (old : Vec Ideal S1024x64 .f32)
    (r : Fin 1024) (d : Fin 64) :
    k0_pay3 (F := Ideal) x xf old (ix2 r d) = old (ix2 r d) + ∑ q : Fin 1024, x (ix2 q r) * xf (ix2 q d) := by
  unfold k0_pay3
  rw [shapeCast_self]
  show old (ix2 r d) + matmul (F := Ideal) (φ₁ := .f32) (φ₂ := .f32) dot_S1024x1024_S1024x64_S1024x64_0_0_1_1_n_n none x xf (constant (F := Ideal) S1024x64 .f32 0x00000000#32) (ix2 r d) = _
  rw [tile_product]

/-- The zero block is zero everywhere. -/
theorem pay1_apply (y : S1024x128.Idx) : k0_pay1 (F := Ideal) y = 0 := by
  unfold k0_pay1
  rw [shapeCast_self]
  show Ideal.ofBits .f32 0x00000000#32 = 0
  exact Ideal.ofBits_zero_f32

/-- The accumulator's left half read at (r, d) is the accumulator at (r, d). -/
theorem ld_left (xs : Vec Ideal S1024x128 .f32) (r : Fin 1024) (d : Fin 64) :
    View.ld xs rectL (ix2 r d) = xs (ix2 r ⟨d.val, by have := d.isLt; omega⟩) := by
  show xs _ = xs _
  refine congrArg xs (funext fun a => Fin.ext ?_)
  match a with
  | ⟨0, _⟩ => show 0 + 1 * r.val = r.val; omega
  | ⟨1, _⟩ => show 0 + 1 * d.val = d.val; omega

/-- Its right half read at (r, d) is the accumulator at (r, 64 + d). -/
theorem ld_right (xs : Vec Ideal S1024x128 .f32) (r : Fin 1024) (d : Fin 64) :
    View.ld xs rectR (ix2 r d) = xs (ix2 r ⟨64 + d.val, by have := d.isLt; omega⟩) := by
  show xs _ = xs _
  refine congrArg xs (funext fun a => Fin.ext ?_)
  match a with
  | ⟨0, _⟩ => show 0 + 1 * r.val = r.val; omega
  | ⟨1, _⟩ => show 64 + 1 * d.val = 64 + d.val; omega

end Cert.KernelIdeal.Acc

end
-- ==== Proof.Spec.lean ====
/-
  The gathered edge features, as ONE function of the three arrays.

  Edge `e` of the graph takes, for each of the 64 node features `d`, the sum over the 8192 nodes `j` of
  `Ro[j, e] · X[j, d]` (the outgoing incidence) into column `d`, and of `Ri[j, e] · X[j, d]` (the incoming incidence)
  into column `64 + d`, of a [16384, 128] array. The sums are over the extended reals, where `+` is commutative and
  associative (a commutative monoid), so a sum over the nodes may be taken tile by tile: the sum over the first
  `n + 1024` nodes is the sum over the first `n` plus the sum over the next 1024. Nothing here needs the inputs finite.
-/
import Idealize.ShloMosaic.PureOps.Ideal
import Idealize.ShloMosaic.Lib.ValueIdx

noncomputable section

namespace Cert.EdgeGather

open Idealize.ShloMosaic Idealize.ShloMosaic.ValueIdx
open scoped BigOperators

/-- An incidence matrix: nodes by edges. -/
abbrev Inc : Type := (⟨2, ![8192, 16384]⟩ : Shape).Idx → EReal
/-- The node features: nodes by features. -/
abbrev Feat : Type := (⟨2, ![8192, 64]⟩ : Shape).Idx → EReal

/-- Node `j`'s contribution to feature `d` of edge `e`: `R[j, e] · X[j, d]`; nothing past the last node. -/
def term (R : Inc) (X : Feat) (e : Fin 16384) (d : Fin 64) (j : ℕ) : EReal :=
  if h : j < 8192 then R (ix2 ⟨j, h⟩ e) * X (ix2 ⟨j, h⟩ d) else 0

/-- The sum of the first `n` nodes' contributions. -/
def psum (R : Inc) (X : Feat) (e : Fin 16384) (d : Fin 64) (n : ℕ) : EReal :=
  ∑ j ∈ Finset.range n, term R X e d j

theorem psum_zero (R : Inc) (X : Feat) (e : Fin 16384) (d : Fin 64) : psum R X e d 0 = 0 :=
  Finset.sum_range_zero (term R X e d)

/-- One more tile of 1024 nodes: the partial sum grows by that tile's 1024 contributions. -/
theorem psum_add_tile (R : Inc) (X : Feat) (e : Fin 16384) (d : Fin 64) (n : ℕ) (hn : n + 1024 ≤ 8192) :
    psum R X e d (n + 1024)
      = psum R X e d n + ∑ q : Fin 1024, R (ix2 ⟨n + q.val, by have := q.isLt; omega⟩ e) * X (ix2 ⟨n + q.val, by have := q.isLt; omega⟩ d) := by
  unfold psum
  rw [Finset.sum_range_add, Finset.sum_range (fun x => term R X e d (n + x))]
  refine congrArg (fun z : EReal => (∑ j ∈ Finset.range n, term R X e d j) + z) (Finset.sum_congr rfl fun q _ => ?_)
  unfold term
  rw [dif_pos (by have := q.isLt; omega)]

/-- All 8192 nodes: the whole contraction. -/
theorem psum_all (R : Inc) (X : Feat) (e : Fin 16384) (d : Fin 64) :
    psum R X e d 8192 = ∑ j : Fin 8192, R (ix2 j e) * X (ix2 j d) := by
  unfold psum
  rw [Finset.sum_range (fun x => term R X e d x)]
  refine Finset.sum_congr rfl fun j _ => ?_
  unfold term
  rw [dif_pos j.isLt]

/-! ### The tiled schedule: 16 edge tiles by 8 node tiles, node tiles innermost

Point `n` of the schedule works on edge tile `n / 8` and node tile `n % 8`; each tile is 1024 wide. -/

/-- Row `r` of point `n`'s edge tile, as an edge. -/
def edgeOf (n : ℕ) (r : Fin 1024) : Fin 16384 := ⟨(n / 8 % 16) * 1024 + r.val, by have := r.isLt; omega⟩
/-- Row `q` of point `n`'s node tile, as a node. -/
def nodeOf (n : ℕ) (q : Fin 1024) : Fin 8192 := ⟨(n % 8) * 1024 + q.val, by have := q.isLt; omega⟩

/-- At an edge tile's first node tile the partial sum is that tile's contributions. -/
theorem psum_first (R : Inc) (X : Feat) (n : ℕ) (r : Fin 1024) (d : Fin 64) (h0 : n % 8 = 0) :
    psum R X (edgeOf n r) d ((n % 8 + 1) * 1024)
      = ∑ q : Fin 1024, R (ix2 (nodeOf n q) (edgeOf n r)) * X (ix2 (nodeOf n q) d) := by
  have hk : (n % 8 + 1) * 1024 = 0 + 1024 := by omega
  rw [hk, psum_add_tile R X _ d 0 (by omega), psum_zero, zero_add]
  refine Finset.sum_congr rfl fun q _ => ?_
  have e : (⟨0 + q.val, by have := q.isLt; omega⟩ : Fin 8192) = nodeOf n q := Fin.ext (by
    show 0 + q.val = (n % 8) * 1024 + q.val
    omega)
  rw [e]

/-- At a later node tile of the same edge tile the partial sum grows by that tile's contributions. -/
theorem psum_next (R : Inc) (X : Feat) (n : ℕ) (r : Fin 1024) (d : Fin 64) (h0 : ¬(n + 1) % 8 = 0) :
    psum R X (edgeOf (n + 1) r) d (((n + 1) % 8 + 1) * 1024)
      = psum R X (edgeOf n r) d ((n % 8 + 1) * 1024)
        + ∑ q : Fin 1024, R (ix2 (nodeOf (n + 1) q) (edgeOf (n + 1) r)) * X (ix2 (nodeOf (n + 1) q) d) := by
  have he : edgeOf (n + 1) r = edgeOf n r := Fin.ext (by
    show ((n + 1) / 8 % 16) * 1024 + r.val = (n / 8 % 16) * 1024 + r.val
    have : (n + 1) / 8 = n / 8 := by omega
    rw [this])
  have hk : ((n + 1) % 8 + 1) * 1024 = (n % 8 + 1) * 1024 + 1024 := by omega
  rw [he, hk, psum_add_tile R X _ d _ (by omega)]
  refine congrArg (fun z : EReal => psum R X (edgeOf n r) d ((n % 8 + 1) * 1024) + z) (Finset.sum_congr rfl fun q _ => ?_)
  have e : (⟨(n % 8 + 1) * 1024 + q.val, by have := q.isLt; omega⟩ : Fin 8192) = nodeOf (n + 1) q := Fin.ext (by
    show (n % 8 + 1) * 1024 + q.val = ((n + 1) % 8) * 1024 + q.val
    omega)
  rw [e]

/-- After an edge tile's last node tile the partial sum is the whole contraction. -/
theorem psum_last (R : Inc) (X : Feat) (n : ℕ) (r : Fin 1024) (d : Fin 64) (h7 : n % 8 = 7) :
    psum R X (edgeOf n r) d ((n % 8 + 1) * 1024) = psum R X (edgeOf n r) d 8192 := by
  rw [h7]

/-- The gathered features: column `d < 64` of row `e` sums `Ro`'s contributions, column `64 + d` sums `Ri`'s. -/
def gathered (X : Feat) (Ri Ro : Inc) : (⟨2, ![16384, 128]⟩ : Shape).Idx → EReal := fun i =>
  if h : (i 1).val < 64 then psum Ro X (i 0) ⟨(i 1).val, h⟩ 8192
  else psum Ri X (i 0) ⟨(i 1).val - 64, by have := (i 1).isLt; simp at this; omega⟩ 8192

end Cert.EdgeGather

end
-- ==== Proof.Readout.lean ====
/-
  Everything the program computes from the gathered edge features `B` [16384, 128] on: the dense layer
  `relu(B · W_in + b_in)`, its rescaling to [0, 1] by the global minimum and maximum, the scaling by the float nearest π,
  the cosine of that plus the per-qubit sum of the two layers of `theta`, the readout `· W_out + b_out` and the logistic
  function `1 / (1 + exp(-·))` — as ONE function of `B` and the five small arrays, at any float instance. Kernel and
  reference apply this same function, the kernel to what its pallas_call leaves in its result array, the reference to
  its concatenation of two products; it is never opened: two equal `B`s give equal results.
-/
import proofs.«115826_j6622839570931_1_alg».proof.Proof.Gen.KernelIdeal.Launch
import Idealize.ShloMosaic.Lib.StableHlo.Run

noncomputable section

namespace Cert.KernelIdeal.Readout

open Cert.KernelIdeal Cert.KernelIdeal.Gen Idealize.ShloMosaic Idealize.ShloMosaic.TcCoe Idealize.SL.Sem Idealize.ShloMosaic.StableHlo

variable {F : FTy → Type} [FloatOps F]

/-- The dense layer with its rectifier: `max(B · W_in + b_in, 0)`, [16384, 8]. -/
def dense (B : (⟨S16384x128, .f32⟩ : BufTy).Contents (Elt F)) (W_in : (⟨S128x8, .f32⟩ : BufTy).Contents (Elt F))
    (b_in : (⟨S8, .f32⟩ : BufTy).Contents (Elt F)) : (⟨S16384x8, .f32⟩ : BufTy).Contents (Elt F) :=
  maximumf (addf (Host.dotGeneral dot_S16384x128_S128x8_S16384x8_1_0_0_1_n_n none B W_in)
      (broadcastInDim S16384x8 ![0, 1] bcast_S1x8_S16384x8_0_1 (broadcastInDim S1x8 ![1] bcast_S8_S1x8_1 b_in)))
    (broadcastInDim S16384x8 ![] bcast_S_S16384x8 (constant S_ .f32 0x00000000#32))

/-- The global minimum of a [16384, 8] array (folded from +∞). -/
def lo (h : (⟨S16384x8, .f32⟩ : BufTy).Contents (Elt F)) : (⟨S_, .f32⟩ : BufTy).Contents (Elt F) :=
  Host.reduce FloatOps.minimumf h (constant S_ .f32 0x7F800000#32) reducesTo_S16384x8_S_d0_1 h_S_

/-- Its global maximum (folded from −∞). -/
def hi (h : (⟨S16384x8, .f32⟩ : BufTy).Contents (Elt F)) : (⟨S_, .f32⟩ : BufTy).Contents (Elt F) :=
  Host.reduce FloatOps.maximumf h (constant S_ .f32 0xFF800000#32) reducesTo_S16384x8_S_d0_1 h_S_

/-- `(h − min h) / (max h − min h)`, times the float nearest π. -/
def angles (h : (⟨S16384x8, .f32⟩ : BufTy).Contents (Elt F)) : (⟨S16384x8, .f32⟩ : BufTy).Contents (Elt F) :=
  mulf (Host.divf (subf h (broadcastInDim S16384x8 ![] bcast_S_S16384x8 (lo h)))
      (broadcastInDim S16384x8 ![] bcast_S_S16384x8 (subf (hi h) (lo h))))
    (broadcastInDim S16384x8 ![] bcast_S_S16384x8 (constant S_ .f32 0x40490FDB#32))

/-- The two layers of `theta` summed per qubit, broadcast over the edges. -/
def phases (theta : (⟨S1x16, .f32⟩ : BufTy).Contents (Elt F)) : (⟨S16384x8, .f32⟩ : BufTy).Contents (Elt F) :=
  broadcastInDim S16384x8 ![0, 1] bcast_S1x8_S16384x8_0_1 (broadcastInDim S1x8 ![1] bcast_S8_S1x8_1
    (Host.reduceAdd (shapeCast S2x8 theta shapeCasts_S1x16_S2x8) (constant S_ .f32 0x00000000#32) reducesTo_S2x8_S8_d0 h_S_))

/-- The whole readout of the gathered features: `1 / (1 + exp(−(cos(angles + phases) · W_out + b_out)))`, [16384, 1]. -/
def readout (B : (⟨S16384x128, .f32⟩ : BufTy).Contents (Elt F)) (W_in : (⟨S128x8, .f32⟩ : BufTy).Contents (Elt F))
    (b_in : (⟨S8, .f32⟩ : BufTy).Contents (Elt F)) (theta : (⟨S1x16, .f32⟩ : BufTy).Contents (Elt F))
    (W_out : (⟨S8x1, .f32⟩ : BufTy).Contents (Elt F)) (b_out : (⟨S1, .f32⟩ : BufTy).Contents (Elt F)) :
    (⟨S16384x1, .f32⟩ : BufTy).Contents (Elt F) :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf
        (Host.dotGeneral dot_S16384x8_S8x1_S16384x1_1_0_0_1_n_n none
          (Host.cos (addf (angles (dense B W_in b_in)) (phases theta))) W_out)
        (broadcastInDim S16384x1 ![0, 1] bcast_S1x1_S16384x1_0_1 (broadcastInDim S1x1 ![1] bcast_S1_S1x1_1 b_out))))))

set_option maxRecDepth 8192 in
set_option maxHeartbeats 1600000 in
/-- The host operations after the pallas_call, run over ANY contents of the buffers, leave in the program's result
    buffer the readout of what they found in the pallas_call's result array and in the five small arguments. -/
theorem after_eq (W : Valuation τ sig (Elt F)) :
    StableHlo.after (List.flatten [hostOps1, hostOps1_1, hostOps1_2]) W (Proc.devRef .tc main_v30)
      = readout (F := F) (W (Proc.devRef .tc main_v0)) (W (Proc.devRef .tc main_arg3)) (W (Proc.devRef .tc main_arg4))
          (W (Proc.devRef .tc main_arg5)) (W (Proc.devRef .tc main_arg6)) (W (Proc.devRef .tc main_arg7)) := by
  simp only [hostOps1, hostOps1_1, hostOps1_2, List.flatten_cons, List.flatten_nil, List.append_nil, List.cons_append,
    List.nil_append]
  after_results_simp
  rfl

end Cert.KernelIdeal.Readout

end
-- ==== Proof.GatherValue.lean ====
/-
  What the kernel's pallas_call leaves in its result array: the specification's gathered features.

  The grid is 16 edge tiles by 8 node tiles, the node tiles innermost: point `n` reads the [1024, 1024] blocks of
  `Ro` and `Ri` at node tile `n % 8`, edge tile `n / 8`, and the [1024, 64] block of `X` at node tile `n % 8`. By
  induction on the point, the accumulator after point `n` holds, at (r, d) of its left half, the sum over the nodes of
  tiles `0 … n % 8` of `Ro[j, e] · X[j, d]` for `e` the edge of row `r` of tile `n / 8` — and the same of `Ri` in its
  right half: a first tile starts from the zero block, a later tile adds its 1024 contributions to what the point before
  left. At the eighth node tile that is the sum over all 8192 nodes, and that point copies the accumulator to the output
  block, which the pipeline writes back as block `n / 8` of the result array; the sixteen such blocks tile the array.
-/
import proofs.«115826_j6622839570931_1_alg».proof.Proof.AccIdeal
import proofs.«115826_j6622839570931_1_alg».proof.Proof.Spec
import proofs.«115826_j6622839570931_1_alg».proof.Proof.Readout
import Idealize.ShloMosaic.Lib.Pipeline.Value

set_option maxRecDepth 16384

noncomputable section

namespace Cert.KernelIdeal.Gather

open Cert.KernelIdeal Cert.KernelIdeal.Gen Cert.KernelIdeal.Acc Cert.EdgeGather
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The three arrays as the region finds them. -/
abbrev featArr (c : Dev nD) : Feat := V m c main_arg0
abbrev inArr (c : Dev nD) : Inc := V m c main_arg1
abbrev outArr (c : Dev nD) : Inc := V m c main_arg2
/-- Their blocks at a point. -/
abbrev outBlk (c : Dev nD) (t : Fin cfg0.N) : Vec Ideal S1024x1024 .f32 := iblk m c 0 t
abbrev inBlk (c : Dev nD) (t : Fin cfg0.N) : Vec Ideal S1024x1024 .f32 := iblk m c 1 t
abbrev featBlk (c : Dev nD) (t : Fin cfg0.N) : Vec Ideal S1024x64 .f32 := iblk m c 2 t

/-- The printed index maps, decided over the grid: node tile `t % 8`, edge tile `t / 8`. -/
theorem idx_facts : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = t.val / 8
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

theorem lt_N (t : Fin cfg0.N) : t.val < 128 := lt_of_lt_of_eq t.isLt (show cfg0.N = 128 from N_0)

/-- The outgoing incidence block at a point, read at (q, r): node `q` of the node tile, edge `r` of the edge tile. -/
theorem outBlk_apply (c : Dev nD) (t : Fin cfg0.N) (q r : Fin 1024) :
    outBlk m c t (ix2 q r) = outArr m c (ix2 (nodeOf t.val q) (edgeOf t.val r)) := by
  obtain ⟨e0, e1, -⟩ := idx_facts t
  have hN := lt_N t
  show iblk m c 0 t (ix2 q r) = V m c main_arg2 _
  unfold iblk
  rw [View.read_apply]
  show V m c main_arg2 _ = V m c main_arg2 _
  refine congrArg (V m c main_arg2) (funext fun a => Fin.ext ?_)
  match a with
  | ⟨0, _⟩ => show win0_0.index t (0 : Fin 2) * 1024 + 1 * q.val = (t.val % 8) * 1024 + q.val; rw [e0]; omega
  | ⟨1, _⟩ => show win0_0.index t (1 : Fin 2) * 1024 + 1 * r.val = (t.val / 8 % 16) * 1024 + r.val; rw [e1]; omega

/-- The incoming incidence block, likewise. -/
theorem inBlk_apply (c : Dev nD) (t : Fin cfg0.N) (q r : Fin 1024) :
    inBlk m c t (ix2 q r) = inArr m c (ix2 (nodeOf t.val q) (edgeOf t.val r)) := by
  obtain ⟨-, -, e0, e1, -⟩ := idx_facts t
  have hN := lt_N t
  show iblk m c 1 t (ix2 q r) = V m c main_arg1 _
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * q.val = (t.val % 8) * 1024 + q.val; rw [e0]; omega
  | ⟨1, _⟩ => show win0_1.index t (1 : Fin 2) * 1024 + 1 * r.val = (t.val / 8 % 16) * 1024 + r.val; rw [e1]; omega

/-- The feature block at a point, read at (q, d): node `q` of the node tile, feature `d`. -/
theorem featBlk_apply (c : Dev nD) (t : Fin cfg0.N) (q : Fin 1024) (d : Fin 64) :
    featBlk m c t (ix2 q d) = featArr m c (ix2 (nodeOf t.val q) d) := by
  obtain ⟨-, -, -, -, e0, e1, -⟩ := idx_facts t
  show iblk m c 2 t (ix2 q d) = V m c main_arg0 _
  unfold iblk
  rw [View.read_apply]
  show V m c main_arg0 _ = V m c main_arg0 _
  refine congrArg (V m c main_arg0) (funext fun a => Fin.ext ?_)
  match a with
  | ⟨0, _⟩ => show win0_2.index t (0 : Fin 2) * 1024 + 1 * q.val = (t.val % 8) * 1024 + q.val; rw [e0]; omega
  | ⟨1, _⟩ => show win0_2.index t (1 : Fin 2) * 64 + 1 * d.val = d.val; rw [e1]; omega

/-- A point's 1024 outgoing contributions, over the blocks, are the specification's terms of that node tile. -/
theorem out_tile (c : Dev nD) (t : Fin cfg0.N) (r : Fin 1024) (d : Fin 64) :
    ∑ q : Fin 1024, outBlk m c t (ix2 q r) * featBlk m c t (ix2 q d)
      = ∑ q : Fin 1024, outArr m c (ix2 (nodeOf t.val q) (edgeOf t.val r)) * featArr m c (ix2 (nodeOf t.val q) d) :=
  Finset.sum_congr rfl fun q _ => by rw [outBlk_apply, featBlk_apply]

/-- And its 1024 incoming contributions. -/
theorem in_tile (c : Dev nD) (t : Fin cfg0.N) (r : Fin 1024) (d : Fin 64) :
    ∑ q : Fin 1024, inBlk m c t (ix2 q r) * featBlk m c t (ix2 q d)
      = ∑ q : Fin 1024, inArr m c (ix2 (nodeOf t.val q) (edgeOf t.val r)) * featArr m c (ix2 (nodeOf t.val q) d) :=
  Finset.sum_congr rfl fun q _ => by rw [inBlk_apply, featBlk_apply]

/-! ## The accumulator after each point -/

/-- The accumulator's left half after point `n`: the outgoing sum over the node tiles `0 … n % 8`. By induction on
    the point: a first node tile starts from zero, a later one adds to what the point before left. -/
theorem acc_left (c : Dev nD) : ∀ (n : ℕ) (hn : n < cfg0.N) (r : Fin 1024) (d : Fin 64),
    (outsAt0 m c n hn).2 (ix2 r ⟨d.val, by have := d.isLt; omega⟩)
      = psum (outArr m c) (featArr m c) (edgeOf n r) d ((n % 8 + 1) * 1024)
  | 0, hn, r, d => by
    rw [outsAt0_A m c ⟨0, hn⟩ rfl (by show ¬0 % 8 = 7; decide)]
    dsimp only
    refine (scratch_A_left (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) scM0_0 (Memref.isWhole_whole _)
      (iblk m c 0 ⟨0, hn⟩) (iblk m c 1 ⟨0, hn⟩) (iblk m c 2 ⟨0, hn⟩) _ _ r d).trans ?_
    rw [pay2_apply, ld_left, pay1_apply, zero_add, psum_first _ _ 0 r d rfl]
    exact out_tile m c ⟨0, hn⟩ r d
  | n + 1, hn, r, d => by
    have hN : n + 1 < 128 := lt_of_lt_of_eq hn (show cfg0.N = 128 from N_0)
    by_cases h0 : (n + 1) % 8 = 0
    · have h1 : ¬(n + 1) % 8 = 7 := by omega
      rw [outsAt0_A m c ⟨n + 1, hn⟩ h0 h1]
      dsimp only
      refine (scratch_A_left (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) scM0_0 (Memref.isWhole_whole _)
        (iblk m c 0 ⟨n + 1, hn⟩) (iblk m c 1 ⟨n + 1, hn⟩) (iblk m c 2 ⟨n + 1, hn⟩) _ _ r d).trans ?_
      rw [pay2_apply, ld_left, pay1_apply, zero_add, psum_first _ _ (n + 1) r d h0]
      exact out_tile m c ⟨n + 1, hn⟩ r d
    · by_cases h1 : (n + 1) % 8 = 7
      · rw [outsAt0_C m c ⟨n + 1, hn⟩ h0 h1]
        dsimp only
        refine (scratch_C_left (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) scM0_0 (Memref.isWhole_whole _)
          (iblk m c 0 ⟨n + 1, hn⟩) (iblk m c 1 ⟨n + 1, hn⟩) (iblk m c 2 ⟨n + 1, hn⟩) (outsAt0 m c n (Nat.lt_of_succ_lt hn)).2 _ _ r d).trans ?_
        rw [pay2_apply, ld_left, acc_left c n (Nat.lt_of_succ_lt hn) r d, psum_next _ _ n r d h0]
        exact congrArg (fun z : EReal => psum (outArr m c) (featArr m c) (edgeOf n r) d ((n % 8 + 1) * 1024) + z) (out_tile m c ⟨n + 1, hn⟩ r d)
      · rw [outsAt0_B m c ⟨n + 1, hn⟩ h0 h1]
        dsimp only
        refine (scratch_B_left (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) scM0_0 (Memref.isWhole_whole _)
          (iblk m c 0 ⟨n + 1, hn⟩) (iblk m c 1 ⟨n + 1, hn⟩) (iblk m c 2 ⟨n + 1, hn⟩) (outsAt0 m c n (Nat.lt_of_succ_lt hn)).2 _ _ r d).trans ?_
        rw [pay2_apply, ld_left, acc_left c n (Nat.lt_of_succ_lt hn) r d, psum_next _ _ n r d h0]
        exact congrArg (fun z : EReal => psum (outArr m c) (featArr m c) (edgeOf n r) d ((n % 8 + 1) * 1024) + z) (out_tile m c ⟨n + 1, hn⟩ r d)

/-- Its right half after point `n`: the incoming sum over the same node tiles. -/
theorem acc_right (c : Dev nD) : ∀ (n : ℕ) (hn : n < cfg0.N) (r : Fin 1024) (d : Fin 64),
    (outsAt0 m c n hn).2 (ix2 r ⟨64 + d.val, by have := d.isLt; omega⟩)
      = psum (inArr m c) (featArr m c) (edgeOf n r) d ((n % 8 + 1) * 1024)
  | 0, hn, r, d => by
    rw [outsAt0_A m c ⟨0, hn⟩ rfl (by show ¬0 % 8 = 7; decide)]
    dsimp only
    refine (scratch_A_right (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) scM0_0 (Memref.isWhole_whole _)
      (iblk m c 0 ⟨0, hn⟩) (iblk m c 1 ⟨0, hn⟩) (iblk m c 2 ⟨0, hn⟩) _ _ r d).trans ?_
    rw [pay3_apply, ld_right, pay1_apply, zero_add, psum_first _ _ 0 r d rfl]
    exact in_tile m c ⟨0, hn⟩ r d
  | n + 1, hn, r, d => by
    have hN : n + 1 < 128 := lt_of_lt_of_eq hn (show cfg0.N = 128 from N_0)
    by_cases h0 : (n + 1) % 8 = 0
    · have h1 : ¬(n + 1) % 8 = 7 := by omega
      rw [outsAt0_A m c ⟨n + 1, hn⟩ h0 h1]
      dsimp only
      refine (scratch_A_right (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) scM0_0 (Memref.isWhole_whole _)
        (iblk m c 0 ⟨n + 1, hn⟩) (iblk m c 1 ⟨n + 1, hn⟩) (iblk m c 2 ⟨n + 1, hn⟩) _ _ r d).trans ?_
      rw [pay3_apply, ld_right, pay1_apply, zero_add, psum_first _ _ (n + 1) r d h0]
      exact in_tile m c ⟨n + 1, hn⟩ r d
    · by_cases h1 : (n + 1) % 8 = 7
      · rw [outsAt0_C m c ⟨n + 1, hn⟩ h0 h1]
        dsimp only
        refine (scratch_C_right (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) scM0_0 (Memref.isWhole_whole _)
          (iblk m c 0 ⟨n + 1, hn⟩) (iblk m c 1 ⟨n + 1, hn⟩) (iblk m c 2 ⟨n + 1, hn⟩) (outsAt0 m c n (Nat.lt_of_succ_lt hn)).2 _ _ r d).trans ?_
        rw [pay3_apply, ld_right, acc_right c n (Nat.lt_of_succ_lt hn) r d, psum_next _ _ n r d h0]
        exact congrArg (fun z : EReal => psum (inArr m c) (featArr m c) (edgeOf n r) d ((n % 8 + 1) * 1024) + z) (in_tile m c ⟨n + 1, hn⟩ r d)
      · rw [outsAt0_B m c ⟨n + 1, hn⟩ h0 h1]
        dsimp only
        refine (scratch_B_right (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) scM0_0 (Memref.isWhole_whole _)
          (iblk m c 0 ⟨n + 1, hn⟩) (iblk m c 1 ⟨n + 1, hn⟩) (iblk m c 2 ⟨n + 1, hn⟩) (outsAt0 m c n (Nat.lt_of_succ_lt hn)).2 _ _ r d).trans ?_
        rw [pay3_apply, ld_right, acc_right c n (Nat.lt_of_succ_lt hn) r d, psum_next _ _ n r d h0]
        exact congrArg (fun z : EReal => psum (inArr m c) (featArr m c) (edgeOf n r) d ((n % 8 + 1) * 1024) + z) (in_tile m c ⟨n + 1, hn⟩ r d)

/-! ## The output block at a last node tile, and the result array -/

/-- At an edge tile's last node tile the output block takes the accumulator: its left half the whole outgoing sum. -/
theorem out_left (c : Dev nD) (t : Fin cfg0.N) (h7 : t.val % 8 = 7) (r : Fin 1024) (d : Fin 64) :
    (outsAt0 m c t.val t.isLt).1 (ix2 r ⟨d.val, by have := d.isLt; omega⟩)
      = psum (outArr m c) (featArr m c) (edgeOf t.val r) d 8192 := by
  obtain ⟨n, hn⟩ := t
  cases n with
  | zero => exact absurd h7 (by show ¬0 % 8 = 7; decide)
  | succ k =>
    have h0 : ¬(k + 1) % 8 = 0 := by dsimp only at h7; omega
    refine Eq.trans ?_ ((acc_left m c (k + 1) hn r d).trans (psum_last _ _ (k + 1) r d h7))
    rw [outsAt0_C m c ⟨k + 1, hn⟩ h0 h7]
    dsimp only
    exact (out_C_left (F := Ideal) c (grid0.coords ⟨k + 1, hn⟩) (ms0_0 ⟨k + 1, hn⟩) (hs0_0 ⟨k + 1, hn⟩) (ms0_1 ⟨k + 1, hn⟩) (hs0_1 ⟨k + 1, hn⟩)
        (ms0_2 ⟨k + 1, hn⟩) (hs0_2 ⟨k + 1, hn⟩) (ms0_3 ⟨k + 1, hn⟩) (hs0_3 ⟨k + 1, hn⟩) scM0_0 (Memref.isWhole_whole _)
        (iblk m c 0 ⟨k + 1, hn⟩) (iblk m c 1 ⟨k + 1, hn⟩) (iblk m c 2 ⟨k + 1, hn⟩) (outsAt0 m c k (Nat.lt_of_succ_lt hn)).2 _ _ r d).trans
      (scratch_C_left (F := Ideal) c (grid0.coords ⟨k + 1, hn⟩) (ms0_0 ⟨k + 1, hn⟩) (hs0_0 ⟨k + 1, hn⟩) (ms0_1 ⟨k + 1, hn⟩) (hs0_1 ⟨k + 1, hn⟩)
        (ms0_2 ⟨k + 1, hn⟩) (hs0_2 ⟨k + 1, hn⟩) (ms0_3 ⟨k + 1, hn⟩) (hs0_3 ⟨k + 1, hn⟩) scM0_0 (Memref.isWhole_whole _)
        (iblk m c 0 ⟨k + 1, hn⟩) (iblk m c 1 ⟨k + 1, hn⟩) (iblk m c 2 ⟨k + 1, hn⟩) (outsAt0 m c k (Nat.lt_of_succ_lt hn)).2 _ _ r d).symm

/-- And its right half the whole incoming sum. -/
theorem out_right (c : Dev nD) (t : Fin cfg0.N) (h7 : t.val % 8 = 7) (r : Fin 1024) (d : Fin 64) :
    (outsAt0 m c t.val t.isLt).1 (ix2 r ⟨64 + d.val, by have := d.isLt; omega⟩)
      = psum (inArr m c) (featArr m c) (edgeOf t.val r) d 8192 := by
  obtain ⟨n, hn⟩ := t
  cases n with
  | zero => exact absurd h7 (by show ¬0 % 8 = 7; decide)
  | succ k =>
    have h0 : ¬(k + 1) % 8 = 0 := by dsimp only at h7; omega
    refine Eq.trans ?_ ((acc_right m c (k + 1) hn r d).trans (psum_last _ _ (k + 1) r d h7))
    rw [outsAt0_C m c ⟨k + 1, hn⟩ h0 h7]
    dsimp only
    exact (out_C_right (F := Ideal) c (grid0.coords ⟨k + 1, hn⟩) (ms0_0 ⟨k + 1, hn⟩) (hs0_0 ⟨k + 1, hn⟩) (ms0_1 ⟨k + 1, hn⟩) (hs0_1 ⟨k + 1, hn⟩)
        (ms0_2 ⟨k + 1, hn⟩) (hs0_2 ⟨k + 1, hn⟩) (ms0_3 ⟨k + 1, hn⟩) (hs0_3 ⟨k + 1, hn⟩) scM0_0 (Memref.isWhole_whole _)
        (iblk m c 0 ⟨k + 1, hn⟩) (iblk m c 1 ⟨k + 1, hn⟩) (iblk m c 2 ⟨k + 1, hn⟩) (outsAt0 m c k (Nat.lt_of_succ_lt hn)).2 _ _ r d).trans
      (scratch_C_right (F := Ideal) c (grid0.coords ⟨k + 1, hn⟩) (ms0_0 ⟨k + 1, hn⟩) (hs0_0 ⟨k + 1, hn⟩) (ms0_1 ⟨k + 1, hn⟩) (hs0_1 ⟨k + 1, hn⟩)
        (ms0_2 ⟨k + 1, hn⟩) (hs0_2 ⟨k + 1, hn⟩) (ms0_3 ⟨k + 1, hn⟩) (hs0_3 ⟨k + 1, hn⟩) scM0_0 (Memref.isWhole_whole _)
        (iblk m c 0 ⟨k + 1, hn⟩) (iblk m c 1 ⟨k + 1, hn⟩) (iblk m c 2 ⟨k + 1, hn⟩) (outsAt0 m c k (Nat.lt_of_succ_lt hn)).2 _ _ r d).symm

/-- The specification's array. -/
abbrev spec (c : Dev nD) : (⟨2, ![16384, 128]⟩ : Shape).Idx → EReal := gathered (featArr m c) (inArr m c) (outArr m c)

/-- So the output block at such a point is the specification's array read at rows `1024 · (t / 8) + ·`. -/
theorem out_spec (c : Dev nD) (t : Fin cfg0.N) (h7 : t.val % 8 = 7) (j : S1024x128.Idx) :
    (outsAt0 m c t.val t.isLt).1 j = spec m c (ix2 (edgeOf t.val (j 0)) (j 1)) := by
  unfold spec gathered
  by_cases h : (j 1).val < 64
  · rw [dif_pos (show ((ix2 (edgeOf t.val (j 0)) (j 1) : (⟨2, ![16384, 128]⟩ : Shape).Idx) 1).val < 64 from h)]
    exact (congrArg (outsAt0 m c t.val t.isLt).1 (eq_ix2 j)).trans (out_left m c t h7 (j 0) ⟨(j 1).val, h⟩)
  · rw [dif_neg (show ¬((ix2 (edgeOf t.val (j 0)) (j 1) : (⟨2, ![16384, 128]⟩ : Shape).Idx) 1).val < 64 from h)]
    have hj : (j 1).val < 128 := (j 1).isLt
    have e : j = ix2 (j 0) ⟨64 + (⟨(j 1).val - 64, by omega⟩ : Fin 64).val, by show 64 + ((j 1).val - 64) < 128; omega⟩ := by
      refine (eq_ix2 j).trans (congrArg (ix2 (j 0)) (Fin.ext ?_))
      show (j 1).val = 64 + ((j 1).val - 64)
      omega
    exact (congrArg (outsAt0 m c t.val t.isLt).1 e).trans (out_right m c t h7 (j 0) ⟨(j 1).val - 64, by omega⟩)

/-- WHAT A WRITE-BACK WRITES: the block of the specification's array at that point. -/
theorem flushed_eq (c : Dev nD) (t : Fin cfg0.N) (hf : (cfg0.win 3).flush t = true) :
    (dats m 0 c).flushed 3 t = ((cfg0.win 3).blk t).view.read (Elt Ideal) (spec m c) := by
  have h7 : t.val % 8 = 7 := (flush0_3 t).mp hf
  have hN := lt_N t
  obtain ⟨-, -, -, -, -, -, e0, e1⟩ := idx_facts t
  show (cfg0.win 3).cut (grid0.coords t) ((dats m 0 c).after 3 t) = _
  rw [after0_3]
  funext j
  show (outsAt0 m c t.val t.isLt).1 j = spec m c (((cfg0.win 3).blk t).view.emb j)
  refine (out_spec m c t h7 j).trans (congrArg (spec m c) (funext fun a => Fin.ext ?_))
  match a with
  | ⟨0, _⟩ => show (t.val / 8 % 16) * 1024 + (j 0).val = win0_3.index t (0 : Fin 2) * 1024 + 1 * (j 0).val; rw [e0]; omega
  | ⟨1, _⟩ => show (j 1).val = win0_3.index t (1 : Fin 2) * 128 + 1 * (j 1).val; rw [e1]; omega

/-- An index of the result array is in point `t`'s block iff each coordinate is in the block's range on its axis. -/
theorem mem_blk (t : Fin cfg0.N) (i : S16384x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0).slice (win0_3.rect t)).set ↔ _
  rw [View.set_slice_whole, Rect.mem_set_unit]
  exact Iff.rfl

/-- THE RESULT ARRAY after the region: the specification's. Row `i` is written back at the last node tile of edge tile
    `i / 1024`. -/
theorem final (c : Dev nD) : (dats m 0 c).arrAt 3 cfg0.N = spec m c :=
  (dats m 0 c).arrAt_eq_of_cover 3 (spec m c) (flushed_eq m c) fun i => by
    have hi0 : (i 0).val < 16384 := (i 0).isLt
    have hi1 : (i 1).val < 128 := (i 1).isLt
    have hN : cfg0.N = 128 := N_0
    have ht : (i 0).val / 1024 * 8 + 7 < cfg0.N := by rw [hN]; omega
    obtain ⟨-, -, -, -, -, -, e0, e1⟩ := idx_facts ⟨(i 0).val / 1024 * 8 + 7, ht⟩
    refine ⟨⟨(i 0).val / 1024 * 8 + 7, ht⟩, (flush0_3 _).mpr (by show ((i 0).val / 1024 * 8 + 7) % 8 = 7; omega), ?_⟩
    rw [mem_blk]
    intro a
    match a with
    | ⟨0, _⟩ =>
      show win0_3.index ⟨(i 0).val / 1024 * 8 + 7, ht⟩ (0 : Fin 2) * 1024 ≤ (i 0).val ∧ (i 0).val < win0_3.index ⟨(i 0).val / 1024 * 8 + 7, ht⟩ (0 : Fin 2) * 1024 + 1024
      rw [e0]
      show ((i 0).val / 1024 * 8 + 7) / 8 * 1024 ≤ (i 0).val ∧ (i 0).val < ((i 0).val / 1024 * 8 + 7) / 8 * 1024 + 1024
      omega
    | ⟨1, _⟩ =>
      show win0_3.index ⟨(i 0).val / 1024 * 8 + 7, ht⟩ (1 : Fin 2) * 128 ≤ (i 1).val ∧ (i 1).val < win0_3.index ⟨(i 0).val / 1024 * 8 + 7, ht⟩ (1 : Fin 2) * 128 + 128
      rw [e1]
      omega

/-! ## The run, read -/

/-- The program's result: the host operations after the pallas_call compute the readout of the specification's gathered
    features (of the argument arrays as launched) and of the five small arguments. -/
theorem result_eq (c : Dev nD) :
    Pipeline.afterTail₀ cfgs (dats m) 0 (V0 m) [hostOps1, hostOps1_1, hostOps1_2] c main_v30
      = Readout.readout (F := Ideal)
          (gathered (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Pipeline.afterTail₀
  rw [Readout.after_eq]
  rw [show Pipeline.withArrays (cfgs 0).spec c (V0 m c) (fun w => (dats m 0 c).arrAt w (cfgs 0).N) (Proc.devRef .tc main_v0)
        = spec m c from (Pipeline.withArrays_arr spec0 launch0.win.arr_inj c _ _ 3).trans (final m c),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5)),
    Pipeline.withArrays_of_ne _ c (V0 m c) _ main_arg6 (by exact (by decide : ∀ w, Pipeline.arrRef spec0 w ≠ main_arg6)),
    Pipeline.withArrays_of_ne _ c (V0 m c) _ main_arg7 (by exact (by decide : ∀ w, Pipeline.arrRef spec0 w ≠ main_arg7))]
  rfl

/-- Every weakly fair execution of the kernel's program terminates with its result at that readout and its eight
    arguments unchanged (the generated frame run, its post read). -/
theorem run : θ_run defs (onTc (τ := τ) (main (F := Ideal))) ⟨m, fun _ => 0, ρ⟩ fun r => ∀ c : Dev nD,
      r.2.mem ((c.tc : Thread nD τ).loc main_v30)
        = Readout.readout (F := Ideal)
            (gathered (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v30 (Pipeline.mem_restRefs_of main_v30 (by decide) (by decide))).trans (result_eq m c),
      ((h c).1 2).trans (((dats m 0 c).arrAt_in 2 rfl _).trans ((A_eq m c 2).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Gather

end
-- ==== Proof.LibAfter.lean ====
/-
  Two general facts about straight lines of host operations.
  (1) The buffer contents after a concatenation of two operation lists are the contents after the second list run from
      the contents after the first.
  (2) A property that holds of every operation of every chunk holds of every operation of the chunks' concatenation.
-/
import Idealize.ShloMosaic.Lib.StableHlo.Run

noncomputable section

namespace Cert.Lib

open Idealize.ShloMosaic Idealize.ShloMosaic.StableHlo

/-- Running one list of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- A property of every element of every chunk holds of every element of the concatenation. -/
theorem forall_flatten {α : Type} {P : α → Prop} (ls : List (List α)) (h : ls.Forall fun l => l.Forall P) : ls.flatten.Forall P :=
  List.forall_iff_forall_mem.mpr fun a ha => by
    obtain ⟨l, hl, hal⟩ := List.mem_flatten.mp ha
    exact List.forall_iff_forall_mem.mp (List.forall_iff_forall_mem.mp h l hl) a hal

end Cert.Lib

end
-- ==== Proof.RefGather.lean ====
/-
  The reference's result is the common readout of the specification's gathered features.

  Its first five operations transpose the two incidence matrices, multiply each by the features — a product
  contracting all 8192 nodes at once, so at edge `e` and feature `d` the sum over the nodes `j` of `R[j, e] · X[j, d]`,
  the transposition only swapping the two coordinates — and concatenate the two products along the feature axis: the
  specification's array, column `d < 64` from the outgoing matrix, column `64 + d` from the incoming one. Its other
  thirty-eight operations are, operation for operation, the kernel's host operations after its pallas_call: the
  same readout.
-/
import proofs.«115826_j6622839570931_1_alg».proof.Proof.RefRun
import proofs.«115826_j6622839570931_1_alg».proof.Proof.Spec
import proofs.«115826_j6622839570931_1_alg».proof.Proof.Readout
import proofs.«115826_j6622839570931_1_alg».proof.Proof.LibAfter
import Idealize.ShloMosaic.Lib.Pipeline.Value
import Idealize.ShloMosaic.Lib.ValueIdx
import Idealize.ShloMosaic.PureOps.Ideal.Laws

noncomputable section

namespace Cert.ReferenceIdeal.Gathered

open Cert.ReferenceIdeal Cert.ReferenceIdeal.Gen Cert.ReferenceIdeal.ValueP Idealize.ShloMosaic Idealize.ShloMosaic.TcCoe
open Idealize.SL.Sem Idealize.ShloMosaic.StableHlo Idealize.ShloMosaic.ValueIdx Cert.EdgeGather
open scoped BigOperators

/-! ### The product's operand indices: the transposed matrix's node axis against the features' node axis -/

theorem lhs_edge (i : S16384x64.Idx) (q : dot_S16384x8192_S8192x64_S16384x64_1_0_0_1_n_n.contr.Idx) :
    (dot_S16384x8192_S8192x64_S16384x64_1_0_0_1_n_n.lhsIdx i q 0).val = (i 0).val := by
  unfold DotDims.lhsIdx
  rw [dif_neg (show ¬(0 : Fin S16384x8192.rank) ∈ dot_S16384x8192_S8192x64_S16384x64_1_0_0_1_n_n.lhsBatch by decide), dif_pos (show (0 : Fin S16384x8192.rank) ∈ dot_S16384x8192_S8192x64_S16384x64_1_0_0_1_n_n.lhsNonContracting by decide)]
  rfl
theorem lhs_node (i : S16384x64.Idx) (q : dot_S16384x8192_S8192x64_S16384x64_1_0_0_1_n_n.contr.Idx) :
    (dot_S16384x8192_S8192x64_S16384x64_1_0_0_1_n_n.lhsIdx i q 1).val = (q ⟨0, by decide⟩).val :=
  dot_S16384x8192_S8192x64_S16384x64_1_0_0_1_n_n.lhsIdx_val_of_single rfl i q
theorem rhs_node (i : S16384x64.Idx) (q : dot_S16384x8192_S8192x64_S16384x64_1_0_0_1_n_n.contr.Idx) :
    (dot_S16384x8192_S8192x64_S16384x64_1_0_0_1_n_n.rhsIdx i q 0).val = (q ⟨0, by decide⟩).val :=
  dot_S16384x8192_S8192x64_S16384x64_1_0_0_1_n_n.rhsIdx_val_of_single rfl i q
theorem rhs_feat (i : S16384x64.Idx) (q : dot_S16384x8192_S8192x64_S16384x64_1_0_0_1_n_n.contr.Idx) :
    (dot_S16384x8192_S8192x64_S16384x64_1_0_0_1_n_n.rhsIdx i q 1).val = (i 1).val := by
  unfold DotDims.rhsIdx
  rw [dif_neg (show ¬(1 : Fin S8192x64.rank) ∈ dot_S16384x8192_S8192x64_S16384x64_1_0_0_1_n_n.rhsBatch by decide), dif_pos (show (1 : Fin S8192x64.rank) ∈ dot_S16384x8192_S8192x64_S16384x64_1_0_0_1_n_n.rhsNonContracting by decide)]
  rfl

/-- `R.T @ X` at edge `e`, feature `d`: the sum over all nodes of `R[j, e] · X[j, d]`. -/
theorem product_apply (R : Inc) (X : Feat) (e : Fin 16384) (d : Fin 64) :
    Host.dotGeneral (F := Ideal) (φ₁ := .f32) (φ₂ := .f32) dot_S16384x8192_S8192x64_S16384x64_1_0_0_1_n_n none
        (transpose (α := EReal) S16384x8192 [1, 0] R transposes_S8192x16384_S16384x8192_1_0) X (ix2 e d)
      = psum R X e d 8192 := by
  simp only [Host.dotGeneral]
  rw [Ideal.dotGeneral_apply, ← Equiv.sum_comp (contrEquiv1 dot_S16384x8192_S8192x64_S16384x64_1_0_0_1_n_n 8192 rfl rfl).symm, psum_all]
  refine Finset.sum_congr rfl fun k _ => ?_
  have hk := contrEquiv1_symm_val dot_S16384x8192_S8192x64_S16384x64_1_0_0_1_n_n 8192 rfl rfl k
  have el : dot_S16384x8192_S8192x64_S16384x64_1_0_0_1_n_n.lhsIdx (ix2 e d) ((contrEquiv1 dot_S16384x8192_S8192x64_S16384x64_1_0_0_1_n_n 8192 rfl rfl).symm k) = ix2 e k := funext fun a => Fin.ext (by
    match a with
    | ⟨0, _⟩ => exact lhs_edge _ _
    | ⟨1, _⟩ => exact (lhs_node _ _).trans hk)
  have er : dot_S16384x8192_S8192x64_S16384x64_1_0_0_1_n_n.rhsIdx (ix2 e d) ((contrEquiv1 dot_S16384x8192_S8192x64_S16384x64_1_0_0_1_n_n 8192 rfl rfl).symm k) = ix2 k d := funext fun a => Fin.ext (by
    match a with
    | ⟨0, _⟩ => exact (rhs_node _ _).trans hk
    | ⟨1, _⟩ => exact rhs_feat _ _)
  rw [el, er, transpose_apply [1, 0] R transposes_S8192x16384_S16384x8192_1_0 (ix2 e k) (ix2 k e) (fun b => match b with
    | ⟨0, _⟩ => rfl
    | ⟨1, _⟩ => rfl)]

/-- The concatenation of the two products is the specification's array. -/
theorem concat_eq (X : Feat) (Ri Ro : Inc) :
    concatenate S16384x128 1
        [⟨S16384x64, Host.dotGeneral (F := Ideal) (φ₁ := .f32) (φ₂ := .f32) dot_S16384x8192_S8192x64_S16384x64_1_0_0_1_n_n none (transpose (α := EReal) S16384x8192 [1, 0] Ro transposes_S8192x16384_S16384x8192_1_0) X⟩,
         ⟨S16384x64, Host.dotGeneral (F := Ideal) (φ₁ := .f32) (φ₂ := .f32) dot_S16384x8192_S8192x64_S16384x64_1_0_0_1_n_n none (transpose (α := EReal) S16384x8192 [1, 0] Ri transposes_S8192x16384_S16384x8192_1_0) X⟩]
        concatenates_S16384x64_S16384x64_S16384x128_d1
      = gathered X Ri Ro := by
  funext i
  unfold gathered
  by_cases h : (i 1).val < 64
  · rw [dif_pos h, concatenate_pair_apply_left (s₁ := S16384x64) (s₂ := S16384x64) (1 : Fin S16384x128.rank) _ _ _ i rfl (ix2 (i 0) (⟨(i 1).val, h⟩ : Fin 64) : S16384x64.Idx)
      (fun b => match b with
        | ⟨0, _⟩ => rfl
        | ⟨1, _⟩ => rfl)]
    exact product_apply Ro X _ _
  · rw [dif_neg h, concatenate_pair_apply_right (s₁ := S16384x64) (s₂ := S16384x64) (1 : Fin S16384x128.rank) _ _ _ i rfl rfl
      (ix2 (i 0) (⟨(i 1).val - 64, by have := (i 1).isLt; simp at this; omega⟩ : Fin 64) : S16384x64.Idx)
      (fun b hb => match b, hb with
        | ⟨0, _⟩, _ => rfl
        | ⟨1, _⟩, hb => absurd rfl hb)
      (by show (i 1).val - 64 + 64 = (i 1).val; omega)]
    exact product_apply Ri X _ _

/-! ### The two stretches of operations -/

section Stretches

variable {F : FTy → Type} [FloatOps F]

/-- The first five operations leave the concatenation of the two products in `%4`. -/
theorem head_gathered (V : Valuation τ sig (Elt F)) :
    StableHlo.after ops_head V (Proc.devRef .tc main_v4)
      = concatenate S16384x128 1
          [⟨S16384x64, Host.dotGeneral dot_S16384x8192_S8192x64_S16384x64_1_0_0_1_n_n none (transpose S16384x8192 [1, 0] (V (Proc.devRef .tc main_arg2)) transposes_S8192x16384_S16384x8192_1_0) (V (Proc.devRef .tc main_arg0))⟩,
           ⟨S16384x64, Host.dotGeneral dot_S16384x8192_S8192x64_S16384x64_1_0_0_1_n_n none (transpose S16384x8192 [1, 0] (V (Proc.devRef .tc main_arg1)) transposes_S8192x16384_S16384x8192_1_0) (V (Proc.devRef .tc main_arg0))⟩]
          concatenates_S16384x64_S16384x64_S16384x128_d1 := by
  after_results

/-- And do not touch the five small arguments. -/
theorem head_arg3 (V : Valuation τ sig (Elt F)) : StableHlo.after ops_head V (Proc.devRef .tc main_arg3) = V (Proc.devRef .tc main_arg3) := by
  after_results
theorem head_arg4 (V : Valuation τ sig (Elt F)) : StableHlo.after ops_head V (Proc.devRef .tc main_arg4) = V (Proc.devRef .tc main_arg4) := by
  after_results
theorem head_arg5 (V : Valuation τ sig (Elt F)) : StableHlo.after ops_head V (Proc.devRef .tc main_arg5) = V (Proc.devRef .tc main_arg5) := by
  after_results
theorem head_arg6 (V : Valuation τ sig (Elt F)) : StableHlo.after ops_head V (Proc.devRef .tc main_arg6) = V (Proc.devRef .tc main_arg6) := by
  after_results
theorem head_arg7 (V : Valuation τ sig (Elt F)) : StableHlo.after ops_head V (Proc.devRef .tc main_arg7) = V (Proc.devRef .tc main_arg7) := by
  after_results

set_option maxRecDepth 8192 in
set_option maxHeartbeats 1600000 in
/-- The other thirty-eight operations, run over ANY contents of the buffers, leave in the program's result buffer the
    readout — the kernel's own, operation for operation — of what they found in `%4` and in the five small arguments. -/
theorem tail_readout (W : Valuation τ sig (Elt F)) :
    StableHlo.after ops_tail W (Proc.devRef .tc main_v34)
      = Cert.KernelIdeal.Readout.readout (F := F) (W (Proc.devRef .tc main_v4)) (W (Proc.devRef .tc main_arg3)) (W (Proc.devRef .tc main_arg4))
          (W (Proc.devRef .tc main_arg5)) (W (Proc.devRef .tc main_arg6)) (W (Proc.devRef .tc main_arg7)) := by
  after_results_simp
  rfl

end Stretches

/-- The reference's result: the common readout of the specification's gathered features of the arguments as launched. -/
theorem result_eq (m : (ℓ : Loc nD τ sig) → Buf (Elt Ideal) ℓ) (c : Dev nD) :
    StableHlo.after ops (launchContents m c) (Proc.devRef .tc main_v34)
      = Cert.KernelIdeal.Readout.readout (F := Ideal)
          (gathered (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [ops_split, Cert.Lib.after_append, tail_readout, head_gathered, head_arg3, head_arg4, head_arg5, head_arg6, head_arg7,
    ← concat_eq]

set_option maxRecDepth 8192 in
set_option maxHeartbeats 1600000 in
/-- No operation writes an argument: each ends as launched. -/
theorem args_kept (m : (ℓ : Loc nD τ sig) → Buf (Elt Ideal) ℓ) (c : Dev nD) :
    StableHlo.after ops (launchContents m c) (Proc.devRef .tc main_arg0) = m ((c.tc : Thread nD τ).loc main_arg0)
    ∧ StableHlo.after ops (launchContents m c) (Proc.devRef .tc main_arg1) = m ((c.tc : Thread nD τ).loc main_arg1)
    ∧ StableHlo.after ops (launchContents m c) (Proc.devRef .tc main_arg2) = m ((c.tc : Thread nD τ).loc main_arg2)
    ∧ StableHlo.after ops (launchContents m c) (Proc.devRef .tc main_arg3) = m ((c.tc : Thread nD τ).loc main_arg3)
    ∧ StableHlo.after ops (launchContents m c) (Proc.devRef .tc main_arg4) = m ((c.tc : Thread nD τ).loc main_arg4)
    ∧ StableHlo.after ops (launchContents m c) (Proc.devRef .tc main_arg5) = m ((c.tc : Thread nD τ).loc main_arg5)
    ∧ StableHlo.after ops (launchContents m c) (Proc.devRef .tc main_arg6) = m ((c.tc : Thread nD τ).loc main_arg6)
    ∧ StableHlo.after ops (launchContents m c) (Proc.devRef .tc main_arg7) = m ((c.tc : Thread nD τ).loc main_arg7) :=
  by
  simp only [ops, ops_pre, ops_relu, ops_post, List.cons_append, List.nil_append]
  refine ⟨?_, ?_, ?_, ?_, ?_, ?_, ?_, ?_⟩ <;> (after_results_simp <;> rfl)

/-- Every weakly fair execution of the reference terminates with its result at that readout and its eight arguments
    unchanged (the run of its straight line of host operations, read). -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
        = Cert.KernelIdeal.Readout.readout (F := Ideal)
            (gathered (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v34).trans (result_eq m c),
      (h c main_arg0).trans (args_kept m c).1,
      (h c main_arg1).trans (args_kept m c).2.1,
      (h c main_arg2).trans (args_kept m c).2.2.1,
      (h c main_arg3).trans (args_kept m c).2.2.2.1,
      (h c main_arg4).trans (args_kept m c).2.2.2.2.1,
      (h c main_arg5).trans (args_kept m c).2.2.2.2.2.1,
      (h c main_arg6).trans (args_kept m c).2.2.2.2.2.2.1,
      (h c main_arg7).trans (args_kept m c).2.2.2.2.2.2.2⟩)
    (Cert.ReferenceIdeal.ValueP.run (F := Ideal) m ρ)

end Cert.ReferenceIdeal.Gathered

end
-- ==== Proof.lean ====
/-
  EdgeNet's edge scores: the kernel against its jnp reference, over the extended reals.

  Both programs gather, for each of the 16384 edges, the 64 features of its outgoing and of its incoming node — as
  products of the transposed one-hot incidence matrices `Ro`, `Ri` [8192, 16384] with the node features `X` [8192, 64]
  — into a [16384, 128] array `B`, and then apply one and the same readout to `B`: a dense layer with a rectifier, a
  rescaling to [0, 1] by the global minimum and maximum, a cosine of that times π plus per-qubit phases, a second dense
  layer and the logistic function.

  The reference computes `B` as `concat(Ro.T @ X, Ri.T @ X)`: at (e, d) the sum over ALL nodes `j` of
  `Ro[j, e] · X[j, d]`, and of `Ri[j, e] · X[j, d]` at (e, 64 + d). The kernel tiles the edges by 1024 and the nodes by
  1024 and accumulates, for each edge tile, the eight node tiles' block products into a scratch accumulator (zeroed at
  the first node tile, copied to the output block at the last): at (e, d) the sum over the node tiles of the sums over
  each tile's 1024 nodes. Over the extended reals addition is commutative and associative, so the tiled sum IS the sum
  over all nodes: the two `B`s are one array (Spec.lean's `gathered`), and the common readout of it is the common
  result. Nothing here needs the inputs finite: no law beyond the commutative monoid's is used.

  The three frames: the kernel's two are generated; the reference's is its run with the result dropped. The ideal pass
  rewrote nothing, so `preserves` is `True`.
-/
import proofs.«115826_j6622839570931_1_alg».proof.Defs
import proofs.«115826_j6622839570931_1_alg».proof.Proof.Gen.Kernel
import proofs.«115826_j6622839570931_1_alg».proof.Proof.Gen.Kernel.Frame
import proofs.«115826_j6622839570931_1_alg».proof.Proof.Gen.KernelIdeal
import proofs.«115826_j6622839570931_1_alg».proof.Proof.Gen.KernelIdeal.Frame
import proofs.«115826_j6622839570931_1_alg».proof.Proof.Gen.ReferenceIdeal
import proofs.«115826_j6622839570931_1_alg».proof.Proof.Gen.Pre_finite_inputs
import proofs.«115826_j6622839570931_1_alg».proof.Proof.GatherValue
import proofs.«115826_j6622839570931_1_alg».proof.Proof.RefGather
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Gathered.run m ρ)

theorem preserves : Cert.preserves_Kernel_KernelIdeal := trivial

/-- Both programs end at the readout of the gathered features of arguments that agree. -/
theorem algebraic : Cert.algebraic_KernelIdeal_ReferenceIdeal := by
  intro m ρ m' ρ' _ hagree
  refine ⟨_, Cert.KernelIdeal.Gather.run m ρ, ?_⟩
  refine (θ_run Cert.ReferenceIdeal.defs _ _).mono (fun _ h c => ⟨(h c).1.trans ?_, (h c).2⟩)
    (Cert.ReferenceIdeal.Gathered.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
